-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x544x960 : Shape := ⟨4, ![8, 3, 544, 960]⟩
abbrev S8x27x544x960 : Shape := ⟨4, ![8, 27, 544, 960]⟩
abbrev S_ : Shape := ⟨0, ![]⟩

class Facts : Prop where
  bcast_S_S8x3x544x960 : S_.BroadcastsInDim S8x3x544x960 (![] : Fin 0 → Fin S8x3x544x960.rank)
  reducesTo_S8x3x544x960_S_d0_1_2_3 : S8x3x544x960.ReducesTo [0, 1, 2, 3] S_
  h_S_ : 0 < S_.numel
  bcast_S_S8x27x544x960 : S_.BroadcastsInDim S8x27x544x960 (![] : Fin 0 → Fin S8x27x544x960.rank)
  reducesTo_S8x27x544x960_S_d0_1_2_3 : S8x27x544x960.ReducesTo [0, 1, 2, 3] S_

variable [Facts]

def fn {F : FTy → Type} [FloatOps F] (main_arg0 : FVec F S8x3x544x960 .f32) (main_arg1 : FVec F S8x27x544x960 .f32) : IVec S_ 1 :=
  let main_v0 : FVec F S8x3x544x960 .f32 := Host.absf main_arg0
  let main_cst : FVec F S_ .f32 := constant S_ .f32 0x7F800000#32
  let main_v1 : FVec F S8x3x544x960 .f32 := broadcastInDim S8x3x544x960 ![] bcast_S_S8x3x544x960 main_cst
  let main_v2 : IVec S8x3x544x960 1 := cmpf .olt main_v0 main_v1
  let main_c : IVec S_ 1 := constantI S_ 1 1#1
  let main_v3 : IVec S_ 1 := (fun x v => Host.reduce IntOp.andi x v reducesTo_S8x3x544x960_S_d0_1_2_3 h_S_) main_v2 main_c
  let main_v4 : FVec F S8x27x544x960 .f32 := Host.absf main_arg1
  let main_cst_0 : FVec F S_ .f32 := constant S_ .f32 0x7F800000#32
  let main_v5 : FVec F S8x27x544x960 .f32 := broadcastInDim S8x27x544x960 ![] bcast_S_S8x27x544x960 main_cst_0
  let main_v6 : IVec S8x27x544x960 1 := cmpf .olt main_v4 main_v5
  let main_c_1 : IVec S_ 1 := constantI S_ 1 1#1
  let main_v7 : IVec S_ 1 := (fun x v => Host.reduce IntOp.andi x v reducesTo_S8x27x544x960_S_d0_1_2_3 h_S_) main_v6 main_c_1
  let main_v8 : IVec S_ 1 := andi main_v3 main_v7
  main_v8
-- ==== Kernel.lean ====
abbrev S8x3x544x960 : Shape := ⟨4, ![8, 3, 544, 960]⟩
abbrev S8x27x544x960 : Shape := ⟨4, ![8, 27, 544, 960]⟩
abbrev S_ : Shape := ⟨0, ![]⟩
abbrev S8x3x546x962 : Shape := ⟨4, ![8, 3, 546, 962]⟩
abbrev S8x1x544x960 : Shape := ⟨4, ![8, 1, 544, 960]⟩
abbrev S1x3x546x962 : Shape := ⟨4, ![1, 3, 546, 962]⟩
abbrev S1x27x32x960 : Shape := ⟨4, ![1, 27, 32, 960]⟩
abbrev S1x1x32x960 : Shape := ⟨4, ![1, 1, 32, 960]⟩
abbrev S1x3x34x962 : Shape := ⟨4, ![1, 3, 34, 962]⟩
abbrev S3x34x962 : Shape := ⟨3, ![3, 34, 962]⟩
abbrev S27x32x960 : Shape := ⟨3, ![27, 32, 960]⟩
abbrev S32x960 : Shape := ⟨2, ![32, 960]⟩
abbrev S1x32x960 : Shape := ⟨3, ![1, 32, 960]⟩

abbrev nBuf : Space → Nat
  | .hbm => 6
  | .vmem => 6
  | .smem => 0
  | _ => 0

abbrev bufTy : (tb : Table) → Fin (tcTables nBuf tb) → BufTy
  | .hbm, ⟨0, _⟩ => ⟨S8x3x544x960, .f32⟩
  | .hbm, ⟨1, _⟩ => ⟨S8x27x544x960, .f32⟩
  | .hbm, ⟨2, _⟩ => ⟨S_, .i32⟩
  | .hbm, ⟨3, _⟩ => ⟨S_, .f32⟩
  | .hbm, ⟨4, _⟩ => ⟨S8x3x546x962, .f32⟩
  | .hbm, ⟨5, _⟩ => ⟨S8x1x544x960, .f32⟩
  | .local _ .vmem, ⟨0, _⟩ => ⟨S1x3x546x962, .f32⟩
  | .local _ .vmem, ⟨1, _⟩ => ⟨S1x3x546x962, .f32⟩
  | .local _ .vmem, ⟨2, _⟩ => ⟨S1x27x32x960, .f32⟩
  | .local _ .vmem, ⟨3, _⟩ => ⟨S1x27x32x960, .f32⟩
  | .local _ .vmem, ⟨4, _⟩ => ⟨S1x1x32x960, .f32⟩
  | .local _ .vmem, ⟨5, _⟩ => ⟨S1x1x32x960, .f32⟩
  | _, _ => ⟨S8x3x544x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 4 → Nat :=
  let c0 : Index := 0#32
  let c0_0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x546x962 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x27x32x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x3x544x960_S8x3x546x962_000_000_110_110 : S8x3x544x960.Pads (![0, 0, 1, 1] : Fin 4 → Nat) ![0, 0, 1, 1] ![0, 0, 0, 0] S8x3x546x962
  h_S_ : 0 < S_.numel
  h_S1x3x34x962 : 0 < S1x3x34x962.numel
  shapeCasts_S1x3x34x962_S3x34x962 : S1x3x34x962.ShapeCasts S3x34x962
  inb_S1x27x32x960_S1x27x32x960_0_0_0_0 : ∀ a, (![0, 0, 0, 0] : Fin 4 → Nat) a + S1x27x32x960.size a ≤ S1x27x32x960.size a
  h_S1x27x32x960 : 0 < S1x27x32x960.numel
  shapeCasts_S1x27x32x960_S27x32x960 : S1x27x32x960.ShapeCasts S27x32x960
  slices_S3x34x962_o0_0_0_S1x32x960 : S3x34x962.Slices ![0, 0, 0] S1x32x960
  shapeCasts_S1x32x960_S32x960 : S1x32x960.ShapeCasts S32x960
  slices_S27x32x960_o0_0_0_S1x32x960 : S27x32x960.Slices ![0, 0, 0] S1x32x960
  slices_S3x34x962_o0_0_1_S1x32x960 : S3x34x962.Slices ![0, 0, 1] S1x32x960
  slices_S27x32x960_o1_0_0_S1x32x960 : S27x32x960.Slices ![1, 0, 0] S1x32x960
  slices_S3x34x962_o0_0_2_S1x32x960 : S3x34x962.Slices ![0, 0, 2] S1x32x960
  slices_S27x32x960_o2_0_0_S1x32x960 : S27x32x960.Slices ![2, 0, 0] S1x32x960
  slices_S3x34x962_o0_1_0_S1x32x960 : S3x34x962.Slices ![0, 1, 0] S1x32x960
  slices_S27x32x960_o3_0_0_S1x32x960 : S27x32x960.Slices ![3, 0, 0] S1x32x960
  slices_S3x34x962_o0_1_1_S1x32x960 : S3x34x962.Slices ![0, 1, 1] S1x32x960
  slices_S27x32x960_o4_0_0_S1x32x960 : S27x32x960.Slices ![4, 0, 0] S1x32x960
  slices_S3x34x962_o0_1_2_S1x32x960 : S3x34x962.Slices ![0, 1, 2] S1x32x960
  slices_S27x32x960_o5_0_0_S1x32x960 : S27x32x960.Slices ![5, 0, 0] S1x32x960
  slices_S3x34x962_o0_2_0_S1x32x960 : S3x34x962.Slices ![0, 2, 0] S1x32x960
  slices_S27x32x960_o6_0_0_S1x32x960 : S27x32x960.Slices ![6, 0, 0] S1x32x960
  slices_S3x34x962_o0_2_1_S1x32x960 : S3x34x962.Slices ![0, 2, 1] S1x32x960
  slices_S27x32x960_o7_0_0_S1x32x960 : S27x32x960.Slices ![7, 0, 0] S1x32x960
  slices_S3x34x962_o0_2_2_S1x32x960 : S3x34x962.Slices ![0, 2, 2] S1x32x960
  slices_S27x32x960_o8_0_0_S1x32x960 : S27x32x960.Slices ![8, 0, 0] S1x32x960
  slices_S3x34x962_o1_0_0_S1x32x960 : S3x34x962.Slices ![1, 0, 0] S1x32x960
  slices_S27x32x960_o9_0_0_S1x32x960 : S27x32x960.Slices ![9, 0, 0] S1x32x960
  slices_S3x34x962_o1_0_1_S1x32x960 : S3x34x962.Slices ![1, 0, 1] S1x32x960
  slices_S27x32x960_o10_0_0_S1x32x960 : S27x32x960.Slices ![10, 0, 0] S1x32x960
  slices_S3x34x962_o1_0_2_S1x32x960 : S3x34x962.Slices ![1, 0, 2] S1x32x960
  slices_S27x32x960_o11_0_0_S1x32x960 : S27x32x960.Slices ![11, 0, 0] S1x32x960
  slices_S3x34x962_o1_1_0_S1x32x960 : S3x34x962.Slices ![1, 1, 0] S1x32x960
  slices_S27x32x960_o12_0_0_S1x32x960 : S27x32x960.Slices ![12, 0, 0] S1x32x960
  slices_S3x34x962_o1_1_1_S1x32x960 : S3x34x962.Slices ![1, 1, 1] S1x32x960
  slices_S27x32x960_o13_0_0_S1x32x960 : S27x32x960.Slices ![13, 0, 0] S1x32x960
  slices_S3x34x962_o1_1_2_S1x32x960 : S3x34x962.Slices ![1, 1, 2] S1x32x960
  slices_S27x32x960_o14_0_0_S1x32x960 : S27x32x960.Slices ![14, 0, 0] S1x32x960
  slices_S3x34x962_o1_2_0_S1x32x960 : S3x34x962.Slices ![1, 2, 0] S1x32x960
  slices_S27x32x960_o15_0_0_S1x32x960 : S27x32x960.Slices ![15, 0, 0] S1x32x960
  slices_S3x34x962_o1_2_1_S1x32x960 : S3x34x962.Slices ![1, 2, 1] S1x32x960
  slices_S27x32x960_o16_0_0_S1x32x960 : S27x32x960.Slices ![16, 0, 0] S1x32x960
  slices_S3x34x962_o1_2_2_S1x32x960 : S3x34x962.Slices ![1, 2, 2] S1x32x960
  slices_S27x32x960_o17_0_0_S1x32x960 : S27x32x960.Slices ![17, 0, 0] S1x32x960
  slices_S3x34x962_o2_0_0_S1x32x960 : S3x34x962.Slices ![2, 0, 0] S1x32x960
  slices_S27x32x960_o18_0_0_S1x32x960 : S27x32x960.Slices ![18, 0, 0] S1x32x960
  slices_S3x34x962_o2_0_1_S1x32x960 : S3x34x962.Slices ![2, 0, 1] S1x32x960
  slices_S27x32x960_o19_0_0_S1x32x960 : S27x32x960.Slices ![19, 0, 0] S1x32x960
  slices_S3x34x962_o2_0_2_S1x32x960 : S3x34x962.Slices ![2, 0, 2] S1x32x960
  slices_S27x32x960_o20_0_0_S1x32x960 : S27x32x960.Slices ![20, 0, 0] S1x32x960
  slices_S3x34x962_o2_1_0_S1x32x960 : S3x34x962.Slices ![2, 1, 0] S1x32x960
  slices_S27x32x960_o21_0_0_S1x32x960 : S27x32x960.Slices ![21, 0, 0] S1x32x960
  slices_S3x34x962_o2_1_1_S1x32x960 : S3x34x962.Slices ![2, 1, 1] S1x32x960
  slices_S27x32x960_o22_0_0_S1x32x960 : S27x32x960.Slices ![22, 0, 0] S1x32x960
  slices_S3x34x962_o2_1_2_S1x32x960 : S3x34x962.Slices ![2, 1, 2] S1x32x960
  slices_S27x32x960_o23_0_0_S1x32x960 : S27x32x960.Slices ![23, 0, 0] S1x32x960
  slices_S3x34x962_o2_2_0_S1x32x960 : S3x34x962.Slices ![2, 2, 0] S1x32x960
  slices_S27x32x960_o24_0_0_S1x32x960 : S27x32x960.Slices ![24, 0, 0] S1x32x960
  slices_S3x34x962_o2_2_1_S1x32x960 : S3x34x962.Slices ![2, 2, 1] S1x32x960
  slices_S27x32x960_o25_0_0_S1x32x960 : S27x32x960.Slices ![25, 0, 0] S1x32x960
  slices_S3x34x962_o2_2_2_S1x32x960 : S3x34x962.Slices ![2, 2, 2] S1x32x960
  slices_S27x32x960_o26_0_0_S1x32x960 : S27x32x960.Slices ![26, 0, 0] S1x32x960
  inb_S1x1x32x960_S1x1x32x960_0_0_0_0 : ∀ a, (![0, 0, 0, 0] : Fin 4 → Nat) a + S1x1x32x960.size a ≤ S1x1x32x960.size a
  h_S1x1x32x960 : 0 < S1x1x32x960.numel
  shapeCasts_S1x1x32x960_S32x960 : S1x1x32x960.ShapeCasts S32x960
  shapeCasts_S32x960_S1x1x32x960 : S32x960.ShapeCasts S1x1x32x960
  hrank0 : 0 < grid0.rank
  k0_mult1_dvd : ∀ i : grid0.Coords, 8 ∣ (k0_mult1 i).toNat
  k0_off1_inb : ∀ i : grid0.Coords, ∀ a, (k0_off1 i) a + S1x3x34x962.size a ≤ S1x3x546x962.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x546x962.size a ≤ S8x3x546x962.size a
  hwx0_0 : ∀ i : grid0.Coords, EltTy.bits .f32 = 32 ∨ (Rect.block (s := S8x3x546x962) S1x3x546x962.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x27x32x960.size a ≤ S8x27x544x960.size a
  hwx0_1 : ∀ i : grid0.Coords, EltTy.bits .f32 = 32 ∨ (Rect.block (s := S8x27x544x960) S1x27x32x960.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32x960.size a ≤ S8x1x544x960.size a
  hwx0_2 : ∀ i : grid0.Coords, EltTy.bits .f32 = 32 ∨ (Rect.block (s := S8x1x544x960) S1x1x32x960.size (cc0_transform_2 i) (hinb0_2 i)).WholeWords (EltTy.packing .f32)

variable [Facts₀]

abbrev win0_0 : Pipeline.Window sig grid0 :=
  Pipeline.Window.ofSpec (Memref.whole main_v0) S1x3x546x962.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x27x32x960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x32x960.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x544x960 : Shape := ⟨4, ![8, 3, 544, 960]⟩
abbrev S8x27x544x960 : Shape := ⟨4, ![8, 27, 544, 960]⟩
abbrev S_ : Shape := ⟨0, ![]⟩
abbrev S8x3x546x962 : Shape := ⟨4, ![8, 3, 546, 962]⟩
abbrev S8x3x1x544x960 : Shape := ⟨5, ![8, 3, 1, 544, 960]⟩
abbrev S8x3x9x544x960 : Shape := ⟨5, ![8, 3, 9, 544, 960]⟩
abbrev S8x544x960 : Shape := ⟨3, ![8, 544, 960]⟩
abbrev S8x1x544x960 : Shape := ⟨4, ![8, 1, 544, 960]⟩

abbrev nBuf : Space → Nat
  | .hbm => 29
  | .vmem => 0
  | .smem => 0
  | _ => 0

abbrev bufTy : (tb : Table) → Fin (tcTables nBuf tb) → BufTy
  | .hbm, ⟨0, _⟩ => ⟨S8x3x544x960, .f32⟩
  | .hbm, ⟨1, _⟩ => ⟨S8x27x544x960, .f32⟩
  | .hbm, ⟨2, _⟩ => ⟨S_, .i32⟩
  | .hbm, ⟨3, _⟩ => ⟨S_, .f32⟩
  | .hbm, ⟨4, _⟩ => ⟨S8x3x546x962, .f32⟩
  | .hbm, ⟨5, _⟩ => ⟨S8x3x544x960, .f32⟩
  | .hbm, ⟨6, _⟩ => ⟨S8x3x544x960, .f32⟩
  | .hbm, ⟨7, _⟩ => ⟨S8x3x544x960, .f32⟩
  | .hbm, ⟨8, _⟩ => ⟨S8x3x544x960, .f32⟩
  | .hbm, ⟨9, _⟩ => ⟨S8x3x544x960, .f32⟩
  | .hbm, ⟨10, _⟩ => ⟨S8x3x544x960, .f32⟩
  | .hbm, ⟨11, _⟩ => ⟨S8x3x544x960, .f32⟩
  | .hbm, ⟨12, _⟩ => ⟨S8x3x544x960, .f32⟩
  | .hbm, ⟨13, _⟩ => ⟨S8x3x544x960, .f32⟩
  | .hbm, ⟨14, _⟩ => ⟨S8x3x1x544x960, .f32⟩
  | .hbm, ⟨15, _⟩ => ⟨S8x3x1x544x960, .f32⟩
  | .hbm, ⟨16, _⟩ => ⟨S8x3x1x544x960, .f32⟩
  | .hbm, ⟨17, _⟩ => ⟨S8x3x1x544x960, .f32⟩
  | .hbm, ⟨18, _⟩ => ⟨S8x3x1x544x960, .f32⟩
  | .hbm, ⟨19, _⟩ => ⟨S8x3x1x544x960, .f32⟩
  | .hbm, ⟨20, _⟩ => ⟨S8x3x1x544x960, .f32⟩
  | .hbm, ⟨21, _⟩ => ⟨S8x3x1x544x960, .f32⟩
  | .hbm, ⟨22, _⟩ => ⟨S8x3x1x544x960, .f32⟩
  | .hbm, ⟨23, _⟩ => ⟨S8x3x9x544x960, .f32⟩
  | .hbm, ⟨24, _⟩ => ⟨S8x27x544x960, .f32⟩
  | .hbm, ⟨25, _⟩ => ⟨S8x27x544x960, .f32⟩
  | .hbm, ⟨26, _⟩ => ⟨S_, .f32⟩
  | .hbm, ⟨27, _⟩ => ⟨S8x544x960, .f32⟩
  | .hbm, ⟨28, _⟩ => ⟨S8x1x544x960, .f32⟩
  | _, _ => ⟨S8x3x544x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]

class Facts₀ : Prop where
  pads_S8x3x544x960_S8x3x546x962_000_000_110_110 : S8x3x544x960.Pads (![0, 0, 1, 1] : Fin 4 → Nat) ![0, 0, 1, 1] ![0, 0, 0, 0] S8x3x546x962
  h_S_ : 0 < S_.numel
  slices_S8x3x546x962_S8x3x544x960_0_0_0_0 : S8x3x546x962.Slices ![0, 0, 0, 0] S8x3x544x960
  slices_S8x3x546x962_S8x3x544x960_0_0_0_1 : S8x3x546x962.Slices ![0, 0, 0, 1] S8x3x544x960
  slices_S8x3x546x962_S8x3x544x960_0_0_0_2 : S8x3x546x962.Slices ![0, 0, 0, 2] S8x3x544x960
  slices_S8x3x546x962_S8x3x544x960_0_0_1_0 : S8x3x546x962.Slices ![0, 0, 1, 0] S8x3x544x960
  slices_S8x3x546x962_S8x3x544x960_0_0_1_1 : S8x3x546x962.Slices ![0, 0, 1, 1] S8x3x544x960
  slices_S8x3x546x962_S8x3x544x960_0_0_1_2 : S8x3x546x962.Slices ![0, 0, 1, 2] S8x3x544x960
  slices_S8x3x546x962_S8x3x544x960_0_0_2_0 : S8x3x546x962.Slices ![0, 0, 2, 0] S8x3x544x960
  slices_S8x3x546x962_S8x3x544x960_0_0_2_1 : S8x3x546x962.Slices ![0, 0, 2, 1] S8x3x544x960
  slices_S8x3x546x962_S8x3x544x960_0_0_2_2 : S8x3x546x962.Slices ![0, 0, 2, 2] S8x3x544x960
  bcast_S8x3x544x960_S8x3x1x544x960_0_1_3_4 : S8x3x544x960.BroadcastsInDim S8x3x1x544x960 (![0, 1, 3, 4] : Fin 4 → Fin S8x3x1x544x960.rank)
  concatenates_S8x3x1x544x960_S8x3x1x544x960_S8x3x1x544x960_S8x3x1x544x960_S8x3x1x544x960_S8x3x1x544x960_S8x3x1x544x960_S8x3x1x544x960_S8x3x1x544x960_S8x3x9x544x960_d2 : Shape.Concatenates [S8x3x1x544x960, S8x3x1x544x960, S8x3x1x544x960, S8x3x1x544x960, S8x3x1x544x960, S8x3x1x544x960, S8x3x1x544x960, S8x3x1x544x960, S8x3x1x544x960] S8x3x9x544x960 2
  shapeCasts_S8x3x9x544x960_S8x27x544x960 : S8x3x9x544x960.ShapeCasts S8x27x544x960
  reducesTo_S8x27x544x960_S8x544x960_d1 : S8x27x544x960.ReducesTo [1] S8x544x960
  bcast_S8x544x960_S8x1x544x960_0_2_3 : S8x544x960.BroadcastsInDim S8x1x544x960 (![0, 2, 3] : Fin 3 → Fin S8x1x544x960.rank)

variable [Facts₀]

class Facts : Prop extends Facts₀ where

variable [Facts]
-- ==== Proof.LocalFilterSpec.lean ====
/-
  The function both programs compute, and the one law that joins them.

  Each output pixel (b, h, w) of the filtered image is a sum of 27 products: tap k = 9·c + 3·i + j multiplies entry
  (b, c, h + i, w + j) of the image padded by one pixel on each side of its two spatial axes with entry (b, k, h, w)
  of the per-pixel filter bank. One program adds the 27 products to a start value one after the other, the other adds
  the start value to their sum: over a commutative monoid these agree (`fold_eq_sum`), so no finiteness is needed.
-/
import Idealize.ShloMosaic.Lib.ValueIdx
import Mathlib.Algebra.BigOperators.Fin

noncomputable section

open scoped BigOperators
open Idealize.ShloMosaic Idealize.ShloMosaic.ValueIdx

namespace Cert.LocalFilter

/-- Adding 27 terms to `z` one after the other, first to last, is `z` plus their sum: the sum over `Fin 27` is the
    sum over the naturals below 27, peeled from the top, and addition is associative. -/
theorem fold_eq_sum {M : Type*} [AddCommMonoid M] (z : M) (g : Fin 27 → M) :
    (((((((((((((((((((((((((((z
      + g ⟨0, by decide⟩) + g ⟨1, by decide⟩) + g ⟨2, by decide⟩) + g ⟨3, by decide⟩) + g ⟨4, by decide⟩)
      + g ⟨5, by decide⟩) + g ⟨6, by decide⟩) + g ⟨7, by decide⟩) + g ⟨8, by decide⟩) + g ⟨9, by decide⟩)
      + g ⟨10, by decide⟩) + g ⟨11, by decide⟩) + g ⟨12, by decide⟩) + g ⟨13, by decide⟩) + g ⟨14, by decide⟩)
      + g ⟨15, by decide⟩) + g ⟨16, by decide⟩) + g ⟨17, by decide⟩) + g ⟨18, by decide⟩) + g ⟨19, by decide⟩)
      + g ⟨20, by decide⟩) + g ⟨21, by decide⟩) + g ⟨22, by decide⟩) + g ⟨23, by decide⟩) + g ⟨24, by decide⟩)
      + g ⟨25, by decide⟩) + g ⟨26, by decide⟩)
      = z + ∑ k : Fin 27, g k := by
  rw [Finset.sum_fin_eq_sum_range]
  simp only [Finset.sum_range_succ, Finset.sum_range_zero, Nat.reduceLT, ↓reduceDIte, zero_add, add_assoc]

/-- A rank-4 index with given coordinate values is the index built from those coordinates. -/
theorem ix4_of_val {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d := by
  funext e
  match e with
  | ⟨0, _⟩ => exact Fin.ext h0
  | ⟨1, _⟩ => exact Fin.ext h1
  | ⟨2, _⟩ => exact Fin.ext h2
  | ⟨3, _⟩ => exact Fin.ext h3

/-- The same at rank 5. -/
theorem ix5_of_val {n0 n1 n2 n3 n4 : Nat} (j : (⟨5, ![n0, n1, n2, n3, n4]⟩ : Shape).Idx) (a : Fin n0) (b : Fin n1)
    (c : Fin n2) (d : Fin n3) (e : Fin n4) (h0 : (j 0).val = a.val) (h1 : (j 1).val = b.val) (h2 : (j 2).val = c.val)
    (h3 : (j 3).val = d.val) (h4 : (j 4).val = e.val) : j = ix5 a b c d e := by
  funext x
  match x with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- The padded image, the filter bank, the result. -/
abbrev SPad : Shape := ⟨4, ![8, 3, 546, 962]⟩
abbrev SFil : Shape := ⟨4, ![8, 27, 544, 960]⟩
abbrev SRes : Shape := ⟨4, ![8, 1, 544, 960]⟩

/-- Where tap `k` of output pixel (b, h, w) reads the padded image: channel k / 9, row (k mod 9) / 3 + h,
    column k mod 3 + w. -/
abbrev padAt (b : Fin 8) (h : Fin 544) (w : Fin 960) (k : Fin 27) : SPad.Idx :=
  ix4 b (⟨k.val / 9, by omega⟩ : Fin 3) (⟨k.val % 9 / 3 + h.val, by omega⟩ : Fin 546) (⟨k.val % 3 + w.val, by omega⟩ : Fin 962)

/-- Output pixel (b, h, w): the start value plus the 27 products. -/
def pixel (z : EReal) (xp : SPad.Idx → EReal) (f : SFil.Idx → EReal) (b : Fin 8) (h : Fin 544) (w : Fin 960) : EReal :=
  z + ∑ k : Fin 27, xp (padAt b h w k) * f (ix4 b k h w)

/-- The whole result array. -/
def filtered (z : EReal) (xp : SPad.Idx → EReal) (f : SFil.Idx → EReal) : SRes.Idx → EReal :=
  fun i => pixel z xp f (i 0) (i 2) (i 3)

theorem filtered_apply (z : EReal) (xp : SPad.Idx → EReal) (f : SFil.Idx → EReal) (b : Fin 8) (u : Fin 1) (h : Fin 544) (w : Fin 960) :
    filtered z xp f (ix4 b u h w) = pixel z xp f b h w := rfl

end Cert.LocalFilter

end
-- ==== Proof.KernelTaps.lean ====
/-
  The kernel body as a value. At one grid point the body loads a window of 34 rows from the padded image's block
  (all three channels, all 962 columns, starting at row 32 · (the row-tile index)), loads the filter block, and stores
  one [32, 960] tile: the zero splat with the 27 products added to it one after the other, tap k = 9·c + 3·i + j being
  the window's channel c shifted by i rows and j columns, times channel k of the filter block.
-/
import proofs.«118417_j8942121910817_1_alg».proof.Proof.Gen.KernelIdeal.Frame
import proofs.«118417_j8942121910817_1_alg».proof.Proof.LocalFilterSpec
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Taps

open Cert.KernelIdeal Cert.KernelIdeal.Gen

variable {F : FTy → Type} [FloatOps F]

theorem hz4 : (![0, 0, 0, 0] : Fin 4 → Nat) = fun _ => 0 := funext fun a => by fin_cases a <;> rfl

/-- What the body stores, as one function of the window `v3` it loaded from the padded block and of the filter
    block `v5`: the payloads of the body's three parts composed. -/
def taps (v3 : Vec F S1x3x34x962 .f32) (v5 : Vec F S1x27x32x960 .f32) : Vec F S1x1x32x960 .f32 :=
  k0_pay1
    (k0_pay8 (k0_pay2 v3) (k0_pay3 v5)
      (k0_pay6 (k0_pay2 v3) (k0_pay3 v5) (k0_pay4 v3 v5) (k0_pay5 v3 v5))
      (k0_pay7 (k0_pay2 v3) (k0_pay3 v5)))
    (k0_pay9 (k0_pay2 v3) (k0_pay3 v5))

/-- The output's staging buffer after the body at a point: the body's one store covers it, its two loads read the
    input blocks (the padded block through the 34-row window at the point's row offset, the filter block whole). -/
theorem out_eq (c : Dev nD) (i : grid0.Coords) (arg2 : Memref sig .tc .vmem S1x3x546x962 .f32) (harg2 : arg2.IsWhole)
    (arg3 : Memref sig .tc .vmem S1x27x32x960 .f32) (harg3 : arg3.IsWhole) (arg4 : Memref sig .tc .vmem S1x1x32x960 .f32)
    (harg4 : arg4.IsWhole) (x0 : Vec F S1x3x546x962 .f32) (x1 : Vec F S1x27x32x960 .f32) :
    out0_A_2 c i arg2 harg2 arg3 harg3 arg4 harg4 x0 x1
      = taps (View.ld x0 (Rect.unit (k0_off1 i) S1x3x34x962.size (k0_off1_inb i))) x1 := by
  unfold out0_A_2
  rw [View.read_writes_eq_canon _ _ _ (cover0_A_2 c i arg2 harg2 arg3 harg3 arg4 harg4 x0 x1)]
  unfold kernelRun0_A
  dsimp only
  sl_unfold_words
  rw [View.canon_unit_zero hz4]
  simp only [View.readAt_eq_ld, harg2.read_unread, harg3.read_unread, View.ld_unit_zero (S := S1x27x32x960) hz4]
  rfl

/-- Channel `oc` of the window shifted by `okh` rows and `okw` columns, read at (r, w): the window at
    (oc, okh + r, okw + w). -/
theorem xtap_apply (v3 : Vec Ideal S1x3x34x962 .f32) (oc okh okw : Nat) (hs : S3x34x962.Slices ![oc, okh, okw] S1x32x960)
    (r : Fin 32) (w : Fin 960) :
    shapeCast S32x960 (extractStridedSlice S1x32x960 ![oc, okh, okw] (k0_pay2 v3) hs) shapeCasts_S1x32x960_S32x960 (ix2 r w)
      = v3 (ix4 (0 : Fin 1) (⟨oc, by have := hs.2 0; simp at this; omega⟩ : Fin 3)
          (⟨okh + r.val, by have := hs.2 1; simp at this; omega⟩ : Fin 34)
          (⟨okw + w.val, by have := hs.2 2; simp at this; omega⟩ : Fin 962)) := by
  have b0 : oc + 1 ≤ 3 := by have := hs.2 0; simpa using this
  have b1 : okh + 32 ≤ 34 := by have := hs.2 1; simpa using this
  have b2 : okw + 960 ≤ 962 := by have := hs.2 2; simpa using this
  refine (shapeCast_apply _ shapeCasts_S1x32x960_S32x960 (ix2 r w) (ix3 (0 : Fin 1) r w) ?_).trans ?_
  · rw [Shape.rowMajor_val_three, Shape.rowMajor_val_two]
    show ((0 * 32 + r.val) * 960 + w.val) = r.val * 960 + w.val
    omega
  refine (extractStridedSlice_apply ![oc, okh, okw] _ hs (ix3 (0 : Fin 1) r w)
    (ix3 (⟨oc, by omega⟩ : Fin 3) (⟨okh + r.val, by omega⟩ : Fin 34) (⟨okw + w.val, by omega⟩ : Fin 962)) ?_).trans ?_
  · intro a
    match a with
    | ⟨0, _⟩ => show oc = oc + 0; omega
    | ⟨1, _⟩ => rfl
    | ⟨2, _⟩ => rfl
  unfold k0_pay2
  refine shapeCast_apply v3 shapeCasts_S1x3x34x962_S3x34x962 _ _ ?_
  rw [Shape.rowMajor_val_four, Shape.rowMajor_val_three]
  show (((0 * 3 + oc) * 34 + (okh + r.val)) * 962 + (okw + w.val)) = ((oc * 34 + (okh + r.val)) * 962 + (okw + w.val))
  omega

/-- Channel `k` of the filter block, read at (r, w). -/
theorem ftap_apply (v5 : Vec Ideal S1x27x32x960 .f32) (k : Nat) (hs : S27x32x960.Slices ![k, 0, 0] S1x32x960)
    (r : Fin 32) (w : Fin 960) :
    shapeCast S32x960 (extractStridedSlice S1x32x960 ![k, 0, 0] (k0_pay3 v5) hs) shapeCasts_S1x32x960_S32x960 (ix2 r w)
      = v5 (ix4 (0 : Fin 1) (⟨k, by have := hs.2 0; simp at this; omega⟩ : Fin 27) r w) := by
  have b0 : k + 1 ≤ 27 := by have := hs.2 0; simpa using this
  refine (shapeCast_apply _ shapeCasts_S1x32x960_S32x960 (ix2 r w) (ix3 (0 : Fin 1) r w) ?_).trans ?_
  · rw [Shape.rowMajor_val_three, Shape.rowMajor_val_two]
    show ((0 * 32 + r.val) * 960 + w.val) = r.val * 960 + w.val
    omega
  refine (extractStridedSlice_apply ![k, 0, 0] _ hs (ix3 (0 : Fin 1) r w) (ix3 (⟨k, by omega⟩ : Fin 27) r w) ?_).trans ?_
  · intro a
    match a with
    | ⟨0, _⟩ => show k = k + 0; omega
    | ⟨1, _⟩ => show r.val = 0 + r.val; omega
    | ⟨2, _⟩ => show w.val = 0 + w.val; omega
  unfold k0_pay3
  refine shapeCast_apply v5 shapeCasts_S1x27x32x960_S27x32x960 _ _ ?_
  rw [Shape.rowMajor_val_four, Shape.rowMajor_val_three]
  show (((0 * 27 + k) * 32 + r.val) * 960 + w.val) = ((k * 32 + r.val) * 960 + w.val)
  omega

/-- THE TILE AT (r, w), over the extended reals: zero plus the sum over the 27 taps of the window at
    (k / 9, (k mod 9) / 3 + r, k mod 3 + w) times the filter block at (k, r, w). The body's chain of additions is the
    left-to-right fold (`fold_eq_sum`); each product's two factors are read by the two lemmas above. -/
theorem taps_apply (v3 : Vec Ideal S1x3x34x962 .f32) (v5 : Vec Ideal S1x27x32x960 .f32) (r : Fin 32) (w : Fin 960) :
    taps v3 v5 (ix4 (0 : Fin 1) (0 : Fin 1) r w)
      = Ideal.ofBits .f32 0x00000000#32 + ∑ k : Fin 27,
          v3 (ix4 (0 : Fin 1) (⟨k.val / 9, by omega⟩ : Fin 3) (⟨k.val % 9 / 3 + r.val, by omega⟩ : Fin 34)
              (⟨k.val % 3 + w.val, by omega⟩ : Fin 962))
            * v5 (ix4 (0 : Fin 1) k r w) := by
  rw [← Cert.LocalFilter.fold_eq_sum]
  unfold taps k0_pay1 k0_pay8 k0_pay6 k0_pay4 k0_pay5 k0_pay7 k0_pay9
  refine (shapeCast_apply _ shapeCasts_S32x960_S1x1x32x960 (ix4 (0 : Fin 1) (0 : Fin 1) r w) (ix2 r w) ?_).trans ?_
  · rw [Shape.rowMajor_val_four, Shape.rowMajor_val_two]
    show r.val * 960 + w.val = ((0 * 1 + 0) * 32 + r.val) * 960 + w.val
    omega
  simp only [addf_apply, mulf_apply, broadcast_apply, xtap_apply, ftap_apply]
  rfl

end Cert.KernelIdeal.Taps

end
-- ==== Proof.KernelValue.lean ====
/-
  The kernel's result array. The grid has 8 · 17 points, point t = 17 · b + s handling image b and row tile s: its
  padded-image block is image b whole, its filter and output blocks are rows 32 s … 32 s + 31 of image b. What the
  point writes back is the tile of the specification's array over the padded image and the filter bank (each tap's
  two factors are read where the output's rectangle says), the 136 tiles cover the array, and the padded image is
  the host's pad of the argument.
-/
import proofs.«118417_j8942121910817_1_alg».proof.Proof.Gen.KernelIdeal.Value
import proofs.«118417_j8942121910817_1_alg».proof.Proof.KernelTaps
import Idealize.ShloMosaic.Lib.Pipeline.Value
import Idealize.ShloMosaic.Lib.ValueIdx
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Filtered

open Cert.KernelIdeal Cert.KernelIdeal.Gen Cert.KernelIdeal.Taps Cert.LocalFilter

variable (m : (ℓ : Loc nD τ sig) → Buf (Elt Ideal) ℓ) (ρ : Dev nD → PrngReg)

/-- The index maps over the grid: point t is image t / 17, row tile t mod 17. -/
theorem idx_facts : ∀ t : Fin cfg0.N,
    win0_0.index t (0 : Fin 4) = t.val / 17 ∧ win0_0.index t (1 : Fin 4) = 0 ∧ win0_0.index t (2 : Fin 4) = 0
    ∧ win0_0.index t (3 : Fin 4) = 0
    ∧ win0_1.index t (0 : Fin 4) = t.val / 17 ∧ win0_1.index t (1 : Fin 4) = 0 ∧ win0_1.index t (2 : Fin 4) = t.val % 17
    ∧ win0_1.index t (3 : Fin 4) = 0
    ∧ win0_2.index t (0 : Fin 4) = t.val / 17 ∧ win0_2.index t (1 : Fin 4) = 0 ∧ win0_2.index t (2 : Fin 4) = t.val % 17
    ∧ win0_2.index t (3 : Fin 4) = 0
    ∧ (grid0.coords t 1).val = t.val % 17 :=
  (by decide +kernel : ∀ t : Fin grid0.N, _)

/-- The accumulator's start value: the zero word read as an extended real. -/
abbrev zero : EReal := Ideal.ofBits .f32 0x00000000#32

/-- WHAT POINT `t` WRITES BACK is tile `t` of the specification's array over the padded image and the filter bank as
    the region finds them. -/
theorem flushed_eq (c : Dev nD) (t : Fin cfg0.N) :
    (dats m 0 c).flushed 2 t
      = ((cfg0.win 2).blk t).view.read (Elt Ideal) (filtered zero (V m c main_v0) (V m c main_arg1)) := by
  rw [Value.flushed2_A, out_eq]
  funext j
  obtain ⟨u0, u1, r, w, rfl⟩ : ∃ (u0 : Fin 1) (u1 : Fin 1) (r : Fin 32) (w : Fin 960), j = ix4 u0 u1 r w :=
    ⟨j 0, j 1, j 2, j 3, eq_ix4 j⟩
  obtain rfl : u0 = 0 := Subsingleton.elim _ _
  obtain rfl : u1 = 0 := Subsingleton.elim _ _
  show taps (View.ld (iblk m c 0 t) (Rect.unit (k0_off1 (grid0.coords t)) S1x3x34x962.size (k0_off1_inb _))) (iblk m c 1 t)
      (ix4 (0 : Fin 1) (0 : Fin 1) r w)
    = filtered zero (V m c main_v0) (V m c main_arg1) (((cfg0.win 2).blk t).view.emb (ix4 (0 : Fin 1) (0 : Fin 1) r w))
  rw [taps_apply]
  obtain ⟨e00, e01, e02, e03, e10, e11, e12, e13, e20, e21, e22, e23, eg⟩ := idx_facts t
  have ht := t.isLt
  have hN : cfg0.N = 136 := N_0
  have hr := r.isLt
  have hw := w.isLt
  have he : ((cfg0.win 2).blk t).view.emb (ix4 (0 : Fin 1) (0 : Fin 1) r w)
      = ix4 (⟨t.val / 17, by omega⟩ : Fin 8) (0 : Fin 1) (⟨32 * (t.val % 17) + r.val, by omega⟩ : Fin 544) w :=
    ix4_of_val _ _ _ _ _
      (by show win0_2.index t (0 : Fin 4) * 1 + 1 * 0 = t.val / 17; omega)
      (by show win0_2.index t (1 : Fin 4) * 1 + 1 * 0 = 0; omega)
      (by show win0_2.index t (2 : Fin 4) * 32 + 1 * r.val = 32 * (t.val % 17) + r.val; omega)
      (by show win0_2.index t (3 : Fin 4) * 960 + 1 * w.val = w.val; omega)
  rw [he, filtered_apply]
  unfold pixel
  refine congrArg₂ (· + ·) rfl (Finset.sum_congr rfl fun k _ => ?_)
  have hk := k.isLt
  refine congrArg₂ (· * ·) ?_ ?_
  · have ho := k0_off1_eq (grid0.coords t)
    have o0 : k0_off1 (grid0.coords t) 0 = 0 := congrFun ho 0
    have o1 : k0_off1 (grid0.coords t) 1 = 0 := congrFun ho 1
    have o2 : k0_off1 (grid0.coords t) 2 = 32 * (grid0.coords t 1).val := congrFun ho 2
    have o3 : k0_off1 (grid0.coords t) 3 = 0 := congrFun ho 3
    show V m c main_v0 _ = V m c main_v0 _
    refine congrArg (V m c main_v0) (ix4_of_val _ _ _ _ _ ?_ ?_ ?_ ?_)
    · show win0_0.index t (0 : Fin 4) * 1 + 1 * (k0_off1 (grid0.coords t) 0 + 1 * 0) = t.val / 17
      omega
    · show win0_0.index t (1 : Fin 4) * 3 + 1 * (k0_off1 (grid0.coords t) 1 + 1 * (k.val / 9)) = k.val / 9
      omega
    · show win0_0.index t (2 : Fin 4) * 546 + 1 * (k0_off1 (grid0.coords t) 2 + 1 * (k.val % 9 / 3 + r.val))
        = k.val % 9 / 3 + (32 * (t.val % 17) + r.val)
      omega
    · show win0_0.index t (3 : Fin 4) * 962 + 1 * (k0_off1 (grid0.coords t) 3 + 1 * (k.val % 3 + w.val)) = k.val % 3 + w.val
      omega
  · show V m c main_arg1 _ = V m c main_arg1 _
    refine congrArg (V m c main_arg1) (ix4_of_val _ _ _ _ _ ?_ ?_ ?_ ?_)
    · show win0_1.index t (0 : Fin 4) * 1 + 1 * 0 = t.val / 17
      omega
    · show win0_1.index t (1 : Fin 4) * 27 + 1 * k.val = k.val
      omega
    · show win0_1.index t (2 : Fin 4) * 32 + 1 * r.val = 32 * (t.val % 17) + r.val
      omega
    · show win0_1.index t (3 : Fin 4) * 960 + 1 * w.val = w.val
      omega

/-- An index of the result array is in point `t`'s block iff each coordinate is in the block's range on its axis. -/
theorem mem_blk (t : Fin cfg0.N) (i : S8x1x544x960.Idx) :
    i ∈ ((cfg0.win 2).blk t).view.set ↔ ∀ a : Fin 4, win0_2.index t a * S1x1x32x960.size a ≤ (i a).val
      ∧ (i a).val < win0_2.index t a * S1x1x32x960.size a + S1x1x32x960.size a := by
  show i ∈ ((View.whole main_v1).slice (win0_2.rect t)).set ↔ _
  rw [View.set_slice_whole, Rect.mem_set_unit]
  exact Iff.rfl

/-- Every index (b, ·, h, w) lies in the block of point 17 · b + h / 32. -/
theorem cover (i : S8x1x544x960.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 544 := (i 2).isLt
  have h3 : (i 3).val < 960 := (i 3).isLt
  have hN : cfg0.N = 136 := N_0
  obtain ⟨t, ht⟩ : ∃ t : Fin cfg0.N, t.val = 17 * (i 0).val + (i 2).val / 32 :=
    ⟨⟨17 * (i 0).val + (i 2).val / 32, by omega⟩, rfl⟩
  obtain ⟨-, -, -, -, -, -, -, -, e20, e21, e22, e23, -⟩ := idx_facts t
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 1 ≤ (i 1).val ∧ (i 1).val < win0_2.index t (1 : Fin 4) * 1 + 1
    omega
  | ⟨2, _⟩ =>
    show win0_2.index t (2 : Fin 4) * 32 ≤ (i 2).val ∧ (i 2).val < win0_2.index t (2 : Fin 4) * 32 + 32
    omega
  | ⟨3, _⟩ =>
    show win0_2.index t (3 : Fin 4) * 960 ≤ (i 3).val ∧ (i 3).val < win0_2.index t (3 : Fin 4) * 960 + 960
    omega

/-- THE RESULT ARRAY after the run: the specification's array over the padded image and the filter bank as the
    region finds them. -/
theorem final (c : Dev nD) :
    (dats m 0 c).arrAt 2 cfg0.N = filtered zero (V m c main_v0) (V m c main_arg1) :=
  (dats m 0 c).arrAt_eq_of_cover 2 (filtered zero (V m c main_v0) (V m c main_arg1)) (fun t _ => flushed_eq m c t) cover

/-- The padded image: the argument with a border of one (the converted integer zero) on its two spatial axes. -/
abbrev padded (c : Dev nD) : S8x3x546x962.Idx → EReal :=
  pad S8x3x546x962 ![0, 0, 1, 1] ![0, 0, 1, 1] ![0, 0, 0, 0] (m ((c : Thread nD τ).loc main_arg0))
    (sitofp (F := Ideal) .f32 (constantI S_ 32 0#32)) pads_S8x3x544x960_S8x3x546x962_000_000_110_110 h_S_

/-- The region finds the padded image in its first window's array: the host operations before it wrote it. -/
theorem V_padded (c : Dev nD) : (V m c main_v0 : S8x3x546x962.Idx → EReal) = padded m c := by
  dsimp only [V]
  simp only [hostOps0, hostOps0_1, List.flatten_cons, List.flatten_nil, List.append_nil, List.cons_append,
    List.nil_append]
  after_results
  rfl

/-- THE RUN, READ: the result array is the specification's array over the padded argument and the filter argument;
    both arguments end as launched. -/
theorem run : θ_run defs (onTc (τ := τ) (main (F := Ideal))) ⟨m, fun _ => 0, ρ⟩ fun r => ∀ c : Dev nD,
      r.2.mem ((c : Thread nD τ).loc main_v1) = filtered zero (padded m c) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_padded, V_main_arg1])), (h c).2⟩)
    (Value.run_blocks m ρ)

end Cert.KernelIdeal.Filtered

end
-- ==== Proof.ReferenceValue.lean ====
/-
  The reference as a value. It pads the image, takes the nine shifted crops (row shift i, column shift j, in the
  order 3·i + j), stacks them on a new axis and reshapes [8, 3, 9, 544, 960] to [8, 27, 544, 960] (channel 9·c + q),
  multiplies by the filter bank and sums over the 27 channels from zero. Read at one pixel this is the start value
  plus the sum over the taps of the padded image at (b, k / 9, (k mod 9) / 3 + h, k mod 3 + w) times the filter bank
  at (b, k, h, w): the specification's `pixel`.
-/
import proofs.«118417_j8942121910817_1_alg».proof.Proof.Gen.ReferenceIdeal.Read
import proofs.«118417_j8942121910817_1_alg».proof.Proof.LocalFilterSpec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LocalFilter

variable {F : FTy → Type} [FloatOps F]

/-- The nine shifted crops, each with its unit axis, in stacking order. -/
def shifted (x0 : (⟨S8x3x544x960, .f32⟩ : BufTy).Contents (Elt F)) : Fin 9 → (S8x3x1x544x960.Idx → Elt F .f32)
  | ⟨0, _⟩ => val_main_v10 x0
  | ⟨1, _⟩ => val_main_v11 x0
  | ⟨2, _⟩ => val_main_v12 x0
  | ⟨3, _⟩ => val_main_v13 x0
  | ⟨4, _⟩ => val_main_v14 x0
  | ⟨5, _⟩ => val_main_v15 x0
  | ⟨6, _⟩ => val_main_v16 x0
  | ⟨7, _⟩ => val_main_v17 x0
  | ⟨8, _⟩ => val_main_v18 x0

/-- Crop `q` at (b, c, ·, h, w) is the padded image at (b, c, q / 3 + h, q mod 3 + w). -/
theorem shifted_apply (x0 : (⟨S8x3x544x960, .f32⟩ : BufTy).Contents (Elt F)) (b : Fin 8) (c : Fin 3) (q : Fin 9)
    (h : Fin 544) (w : Fin 960) :
    shifted x0 q (ix5 b c (0 : Fin 1) h w)
      = val_main_v0 x0 (ix4 b c (⟨q.val / 3 + h.val, by omega⟩ : Fin 546) (⟨q.val % 3 + w.val, by omega⟩ : Fin 962)) := by
  match q with
  | ⟨0, _⟩ =>
    exact (val_main_v10_apply x0 _).trans ((val_main_v1_apply x0 _).trans (congrArg (val_main_v0 x0)
      (ix4_of_val _ _ _ _ _ rfl rfl (by show h.val = 0 / 3 + h.val; omega) (by show w.val = 0 % 3 + w.val; omega))))
  | ⟨1, _⟩ =>
    exact (val_main_v11_apply x0 _).trans ((val_main_v2_apply x0 _).trans (congrArg (val_main_v0 x0)
      (ix4_of_val _ _ _ _ _ rfl rfl (by show h.val = 1 / 3 + h.val; omega) (by show 1 + w.val = 1 % 3 + w.val; omega))))
  | ⟨2, _⟩ =>
    exact (val_main_v12_apply x0 _).trans ((val_main_v3_apply x0 _).trans (congrArg (val_main_v0 x0)
      (ix4_of_val _ _ _ _ _ rfl rfl (by show h.val = 2 / 3 + h.val; omega) (by show 2 + w.val = 2 % 3 + w.val; omega))))
  | ⟨3, _⟩ =>
    exact (val_main_v13_apply x0 _).trans ((val_main_v4_apply x0 _).trans (congrArg (val_main_v0 x0)
      (ix4_of_val _ _ _ _ _ rfl rfl (by show 1 + h.val = 3 / 3 + h.val; omega) (by show w.val = 3 % 3 + w.val; omega))))
  | ⟨4, _⟩ =>
    exact (val_main_v14_apply x0 _).trans ((val_main_v5_apply x0 _).trans (congrArg (val_main_v0 x0)
      (ix4_of_val _ _ _ _ _ rfl rfl (by show 1 + h.val = 4 / 3 + h.val; omega) (by show 1 + w.val = 4 % 3 + w.val; omega))))
  | ⟨5, _⟩ =>
    exact (val_main_v15_apply x0 _).trans ((val_main_v6_apply x0 _).trans (congrArg (val_main_v0 x0)
      (ix4_of_val _ _ _ _ _ rfl rfl (by show 1 + h.val = 5 / 3 + h.val; omega) (by show 2 + w.val = 5 % 3 + w.val; omega))))
  | ⟨6, _⟩ =>
    exact (val_main_v16_apply x0 _).trans ((val_main_v7_apply x0 _).trans (congrArg (val_main_v0 x0)
      (ix4_of_val _ _ _ _ _ rfl rfl (by show 2 + h.val = 6 / 3 + h.val; omega) (by show w.val = 6 % 3 + w.val; omega))))
  | ⟨7, _⟩ =>
    exact (val_main_v17_apply x0 _).trans ((val_main_v8_apply x0 _).trans (congrArg (val_main_v0 x0)
      (ix4_of_val _ _ _ _ _ rfl rfl (by show 2 + h.val = 7 / 3 + h.val; omega) (by show 1 + w.val = 7 % 3 + w.val; omega))))
  | ⟨8, _⟩ =>
    exact (val_main_v18_apply x0 _).trans ((val_main_v9_apply x0 _).trans (congrArg (val_main_v0 x0)
      (ix4_of_val _ _ _ _ _ rfl rfl (by show 2 + h.val = 8 / 3 + h.val; omega) (by show 2 + w.val = 8 % 3 + w.val; omega))))

/-- The stack of the nine crops, read at (b, c, q, h, w), is crop `q` there. -/
theorem stack_apply (x0 : (⟨S8x3x544x960, .f32⟩ : BufTy).Contents (Elt F)) (b : Fin 8) (c : Fin 3) (q : Fin 9)
    (h : Fin 544) (w : Fin 960) :
    val_main_v19 x0 (ix5 b c q h w) = shifted x0 q (ix5 b c (0 : Fin 1) h w) := by
  show concatenate S8x3x9x544x960 2
      (List.ofFn fun n : Fin 9 => (⟨S8x3x1x544x960, shifted x0 n⟩ : (s : Shape) × (s.Idx → Elt F .f32)))
      concatenates_S8x3x1x544x960_S8x3x1x544x960_S8x3x1x544x960_S8x3x1x544x960_S8x3x1x544x960_S8x3x1x544x960_S8x3x1x544x960_S8x3x1x544x960_S8x3x1x544x960_S8x3x9x544x960_d2
      (ix5 b c q h w) = _
  refine concatenate_ofFn_unit_apply (t := S8x3x9x544x960) (s₁ := S8x3x1x544x960) (2 : Fin 5) (shifted x0) _ rfl rfl (ix5 b c q h w) q rfl (ix5 b c (0 : Fin 1) h w) ?_
  intro a ha
  match a with
  | ⟨0, _⟩ => rfl
  | ⟨1, _⟩ => rfl
  | ⟨2, _⟩ => exact absurd rfl ha
  | ⟨3, _⟩ => rfl
  | ⟨4, _⟩ => rfl

/-- Channel `k` of the 27-channel expansion at (b, h, w) is the padded image at the tap's place. -/
theorem expanded_apply (x0 : (⟨S8x3x544x960, .f32⟩ : BufTy).Contents (Elt F)) (b : Fin 8) (k : Fin 27)
    (h : Fin 544) (w : Fin 960) :
    val_main_v20 x0 (ix4 b k h w) = val_main_v0 x0 (padAt b h w k) := by
  have hb := b.isLt
  have hk := k.isLt
  have hh := h.isLt
  have hw := w.isLt
  rw [val_main_v20_apply]
  have hj : idx_main_v20 (ix4 b k h w)
      = ix5 b (⟨k.val / 9, by omega⟩ : Fin 3) (⟨k.val % 9, by omega⟩ : Fin 9) h w :=
    ix5_of_val _ _ _ _ _ _
      (by show (((b.val * 27 + k.val) * 544 + h.val) * 960 + w.val) / 14100480 = b.val; omega)
      (by show (((b.val * 27 + k.val) * 544 + h.val) * 960 + w.val) / 4700160 % 3 = k.val / 9; omega)
      (by show (((b.val * 27 + k.val) * 544 + h.val) * 960 + w.val) / 522240 % 9 = k.val % 9; omega)
      (by show (((b.val * 27 + k.val) * 544 + h.val) * 960 + w.val) / 960 % 544 = h.val; omega)
      (by show (((b.val * 27 + k.val) * 544 + h.val) * 960 + w.val) % 960 = w.val; omega)
  rw [hj, stack_apply, shifted_apply]
  refine congrArg (val_main_v0 x0) (ix4_of_val _ _ _ _ _ rfl rfl ?_ ?_)
  · show k.val % 9 / 3 + h.val = k.val % 9 / 3 + h.val; rfl
  · show k.val % 9 % 3 + w.val = k.val % 3 + w.val; omega

/-- THE REFERENCE'S RESULT, over the extended reals, is the specification's array over the padded image. -/
theorem result_eq (x0 : (⟨S8x3x544x960, .f32⟩ : BufTy).Contents (Elt Ideal))
    (x1 : (⟨S8x27x544x960, .f32⟩ : BufTy).Contents (Elt Ideal)) :
    val_main_v23 (F := Ideal) x0 x1
      = filtered (Ideal.ofBits .f32 0x00000000#32) (val_main_v0 (F := Ideal) x0) x1 := by
  funext i
  obtain ⟨b, u, h, w, rfl⟩ : ∃ (b : Fin 8) (u : Fin 1) (h : Fin 544) (w : Fin 960), i = ix4 b u h w :=
    ⟨i 0, i 1, i 2, i 3, eq_ix4 i⟩
  rw [val_main_v23_apply, val_main_v22_apply, filtered_apply]
  unfold pixel
  refine congrArg₂ (· + ·) rfl (Finset.sum_congr rfl fun k _ => ?_)
  rw [val_main_v21_apply]
  have hj : idx_main_v22 (idx_main_v23 (ix4 b u h w)) k = ix4 b k h w := ix4_of_val _ _ _ _ _ rfl rfl rfl rfl
  rw [hj, expanded_apply]
  rfl

end Cert.ReferenceIdeal.RefValue

end
-- ==== Proof.lean ====
/-
  A per-pixel 3×3 filter over three channels: output pixel (b, h, w) is the sum over channel c and shifts i, j of the
  image padded by one pixel, at (b, c, h + i, w + j), times the filter bank at (b, 9·c + 3·i + j, h, w).

  The kernel pads on the host and then, per image and per tile of 32 rows, loads a 34-row window of the padded image
  and the tile of the filter bank and adds the 27 products to a zero tile one after the other. The reference pads,
  stacks the nine shifted crops, reshapes them to 27 channels, multiplies by the filter bank and sums over the
  channels from zero. Over the extended reals both are the start value plus the sum of the same 27 products
  (Proof/LocalFilterSpec.lean): addition there is commutative and associative, so the order of the additions does not
  matter and no input needs to be finite. The kernel's side is Proof/KernelTaps.lean (one tile as a value) and
  Proof/KernelValue.lean (the tiles cover the array); the reference's is Proof/ReferenceValue.lean. The padding value
  is the same converted integer zero on both sides and is never evaluated.

  The three frames are the programs' runs with the results dropped; the ideal pass rewrote nothing, so the kernel's
  idealization is its own text read over the extended reals.
-/
import proofs.«118417_j8942121910817_1_alg».proof.Defs
import proofs.«118417_j8942121910817_1_alg».proof.Proof.Gen.Kernel
import proofs.«118417_j8942121910817_1_alg».proof.Proof.Gen.Kernel.Skeleton
import proofs.«118417_j8942121910817_1_alg».proof.Proof.Gen.Kernel.Launch
import proofs.«118417_j8942121910817_1_alg».proof.Proof.Gen.Kernel.Points
import proofs.«118417_j8942121910817_1_alg».proof.Proof.Gen.Kernel.Frame
import proofs.«118417_j8942121910817_1_alg».proof.Proof.Gen.KernelIdeal
import proofs.«118417_j8942121910817_1_alg».proof.Proof.Gen.KernelIdeal.Skeleton
import proofs.«118417_j8942121910817_1_alg».proof.Proof.Gen.KernelIdeal.Launch
import proofs.«118417_j8942121910817_1_alg».proof.Proof.Gen.KernelIdeal.Points
import proofs.«118417_j8942121910817_1_alg».proof.Proof.Gen.KernelIdeal.Frame
import proofs.«118417_j8942121910817_1_alg».proof.Proof.Gen.ReferenceIdeal
import proofs.«118417_j8942121910817_1_alg».proof.Proof.Gen.Pre_finite_inputs
import proofs.«118417_j8942121910817_1_alg».proof.Proof.Gen.KernelIdeal.Value
import proofs.«118417_j8942121910817_1_alg».proof.Proof.Gen.ReferenceIdeal.Run
import proofs.«118417_j8942121910817_1_alg».proof.Proof.Gen.ReferenceIdeal.Read
import proofs.«118417_j8942121910817_1_alg».proof.Proof.KernelValue
import proofs.«118417_j8942121910817_1_alg».proof.Proof.ReferenceValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the specification's array over the padded argument and the filter argument: the
    kernel's tiles cover it, the reference's channel sum is it pixel by pixel; the arguments agree by hypothesis
    and the two pads are one term. -/
theorem algebraic : Cert.algebraic_KernelIdeal_ReferenceIdeal := by
  intro m ρ m' ρ' _ hagree
  refine ⟨_, Cert.KernelIdeal.Filtered.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v23_eq _ _).trans ((Cert.ReferenceIdeal.RefValue.result_eq _ _).trans rfl)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
